-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1250000 : Shape := ⟨1, ![1250000]⟩
abbrev S100000x64 : Shape := ⟨2, ![100000, 64]⟩
abbrev S1250000x64 : Shape := ⟨2, ![1250000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S1250000 : S_.BroadcastsInDim S1250000 (![] : Fin 0 → Fin S1250000.rank)
  reducesTo_S1250000_S_d0 : S1250000.ReducesTo [0] S_

variable [Facts]

def fn {F : FTy → Type} [FloatOps F] (main_arg0 : IVec S1250000 32) (main_arg1 : FVec F S100000x64 .f32) (main_arg2 : FVec F S1250000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg2
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_c_2 : IVec S_ 32 := constantI S_ 32 0#32
  let main_v9 : IVec S1250000 32 := broadcastInDim S1250000 ![] bcast_S_S1250000 main_c_2
  let main_v10 : IVec S1250000 1 := cmpi .sge main_arg0 main_v9
  let main_c_3 : IVec S_ 1 := constantI S_ 1 1#1
  let main_v11 : IVec S_ 1 := (fun x v => Host.reduce IntOp.andi x v reducesTo_S1250000_S_d0 h_S_) main_v10 main_c_3
  let main_v12 : IVec S_ 1 := andi main_v8 main_v11
  main_v12
-- ==== Kernel.lean ====
abbrev S1250000 : Shape := ⟨1, ![1250000]⟩
abbrev S100000x64 : Shape := ⟨2, ![100000, 64]⟩
abbrev S1250000x64 : Shape := ⟨2, ![1250000, 64]⟩
abbrev S1250000x1 : Shape := ⟨2, ![1250000, 1]⟩
abbrev S_ : Shape := ⟨0, ![]⟩
abbrev S102400x64 : Shape := ⟨2, ![102400, 64]⟩
abbrev S2000x1 : Shape := ⟨2, ![2000, 1]⟩
abbrev S2000x64 : Shape := ⟨2, ![2000, 64]⟩
abbrev S4096x64 : Shape := ⟨2, ![4096, 64]⟩
abbrev S1x4096 : Shape := ⟨2, ![1, 4096]⟩
abbrev S2000x4096 : Shape := ⟨2, ![2000, 4096]⟩

abbrev nBuf : Space → Nat
  | .hbm => 9
  | .vmem => 9
  | .smem => 0
  | _ => 0

abbrev bufTy : (tb : Table) → Fin (tcTables nBuf tb) → BufTy
  | .hbm, ⟨0, _⟩ => ⟨S1250000, .i32⟩
  | .hbm, ⟨1, _⟩ => ⟨S100000x64, .f32⟩
  | .hbm, ⟨2, _⟩ => ⟨S1250000x64, .f32⟩
  | .hbm, ⟨3, _⟩ => ⟨S1250000x1, .i32⟩
  | .hbm, ⟨4, _⟩ => ⟨S_, .i32⟩
  | .hbm, ⟨5, _⟩ => ⟨S_, .f32⟩
  | .hbm, ⟨6, _⟩ => ⟨S102400x64, .f32⟩
  | .hbm, ⟨7, _⟩ => ⟨S102400x64, .f32⟩
  | .hbm, ⟨8, _⟩ => ⟨S100000x64, .f32⟩
  | .local _ .vmem, ⟨0, _⟩ => ⟨S2000x1, .i32⟩
  | .local _ .vmem, ⟨1, _⟩ => ⟨S2000x1, .i32⟩
  | .local _ .vmem, ⟨2, _⟩ => ⟨S2000x64, .f32⟩
  | .local _ .vmem, ⟨3, _⟩ => ⟨S2000x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S4096x64, .f32⟩
  | _, _ => ⟨S1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 625], ![false, false]⟩

def k0_cond2 (i : grid0.Coords) : BitVec 1 :=
  let arg1 : BitVec 32 := BitVec.ofNat 32 (i 1).val
  let c624_i32 : BitVec 32 := 624#32
  let v23 : BitVec 1 := Scalar.cmpi .eq arg1 c624_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1250000_S1250000x1 : S1250000.ShapeCasts S1250000x1
  pads_S100000x64_S102400x64_024000_000 : S100000x64.Pads (![0, 0] : Fin 2 → Nat) ![2400, 0] ![0, 0] S102400x64
  h_S_ : 0 < S_.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x4096_d1_w32 : S1x4096.Iotas .tc 32 [1]
  broadcasts_S2000x1_S2000x4096 : S2000x1.Broadcasts S2000x4096
  broadcasts_S1x4096_S2000x4096 : S1x4096.Broadcasts S2000x4096
  natLt_1_32 : 1 < 32
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  slices_S102400x64_S100000x64_0_0 : S102400x64.Slices ![0, 0] S100000x64
  dot_S2000x4096_S2000x64_S4096x64_0_0_1_1_n_n_wf : DotDims.WF S2000x4096 S2000x64 S4096x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1250000x1.size a
  hwx0_0 : ∀ i : grid0.Coords, EltTy.bits .i32 = 32 ∨ (Rect.block (s := S1250000x1) S2000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1250000x64.size a
  hwx0_1 : ∀ i : grid0.Coords, EltTy.bits .f32 = 32 ∨ (Rect.block (s := S1250000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .f32 = 32 ∨ (Rect.block (s := S102400x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S102400x64.size a
  hwx0_3 : ∀ i : grid0.Coords, EltTy.bits .f32 = 32 ∨ (Rect.block (s := S102400x64) S4096x64.size (cc0_transform_3 i) (hinb0_3 i)).WholeWords (EltTy.packing .f32)

variable [Facts₀]

def dot_S2000x4096_S2000x64_S4096x64_0_0_1_1_n_n : DotDims S2000x4096 S2000x64 S4096x64 where
  lhsContracting := [0]
  rhsContracting := [0]
  lhsNonContracting := [1]
  rhsNonContracting := [1]
  lhsBatch := []
  rhsBatch := []
  wf := dot_S2000x4096_S2000x64_S4096x64_0_0_1_1_n_n_wf

abbrev win0_0 : Pipeline.Window sig grid0 :=
  Pipeline.Window.ofSpec (Memref.whole main_v0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1250000 : Shape := ⟨1, ![1250000]⟩
abbrev S100000x64 : Shape := ⟨2, ![100000, 64]⟩
abbrev S1250000x64 : Shape := ⟨2, ![1250000, 64]⟩
abbrev S_ : Shape := ⟨0, ![]⟩
abbrev S1250000x1 : Shape := ⟨2, ![1250000, 1]⟩

abbrev nBuf : Space → Nat
  | .hbm => 12
  | .vmem => 0
  | .smem => 0
  | _ => 0

abbrev bufTy : (tb : Table) → Fin (tcTables nBuf tb) → BufTy
  | .hbm, ⟨0, _⟩ => ⟨S1250000, .i32⟩
  | .hbm, ⟨1, _⟩ => ⟨S100000x64, .f32⟩
  | .hbm, ⟨2, _⟩ => ⟨S1250000x64, .f32⟩
  | .hbm, ⟨3, _⟩ => ⟨S_, .i32⟩
  | .hbm, ⟨4, _⟩ => ⟨S1250000, .i32⟩
  | .hbm, ⟨5, _⟩ => ⟨S1250000, .i1⟩
  | .hbm, ⟨6, _⟩ => ⟨S_, .i32⟩
  | .hbm, ⟨7, _⟩ => ⟨S1250000, .i32⟩
  | .hbm, ⟨8, _⟩ => ⟨S1250000, .i32⟩
  | .hbm, ⟨9, _⟩ => ⟨S1250000, .i32⟩
  | .hbm, ⟨10, _⟩ => ⟨S1250000x1, .i32⟩
  | .hbm, ⟨11, _⟩ => ⟨S100000x64, .f32⟩
  | _, _ => ⟨S1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  scatter_S100000x64_S1250000x1_S1250000x64_1_0_0_1_wf : ScatterDims.WF S100000x64 S1250000x1 S1250000x64 [1] [0] [0] 1

variable [Facts₀]

def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.Pieces.lean ====
/-
  What one grid point leaves behind, as values.

  The kernel keeps a [4096 × 64] accumulator across the 625 edge tiles of one node block.  At the first tile of a node
  block it first copies the node block of the (padded) target matrix into the accumulator; at every tile it then adds
  the tile's contribution to the accumulator; at the last tile it copies the accumulator to the output block.  Here
  each of these is read off the stores the run found: the accumulator after a first tile is the update applied to the
  copied block, after any other tile the update applied to what the tile before left, and the output block at a last
  tile is the accumulator just updated.
-/
import proofs.«430991_j15642270892741_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A first tile: the accumulator ends at the update applied to the copied target block. -/
theorem acc_first (c : Dev nD) (i : grid0.Coords) (arg2 : Memref sig .tc .vmem S2000x1 .i32) (harg2 : arg2.IsWhole)
    (arg3 : Memref sig .tc .vmem S2000x64 .f32) (harg3 : arg3.IsWhole) (arg4 : Memref sig .tc .vmem S4096x64 .f32) (harg4 : arg4.IsWhole)
    (arg5 : Memref sig .tc .vmem S4096x64 .f32) (harg5 : arg5.IsWhole) (arg6 : Memref sig .tc .vmem S4096x64 .f32) (harg6 : arg6.IsWhole)
    (hc0 : cond0_0 i) (hc1 : ¬cond0_1 i) (x0 : Vec F S2000x1 .i32) (x1 : Vec F S2000x64 .f32) (x2 : Vec F S4096x64 .f32) :
    sout0_A_0 c i arg2 harg2 arg3 harg3 arg4 harg4 arg5 harg5 arg6 harg6 hc0 hc1 x0 x1 x2 = k0_pay2 i x0 x1 (k0_pay1 x2) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4096x64) hz]
  simp only [View.readAt_eq_ld, harg2.read_unread, harg3.read_unread, harg4.read_unread, View.ld_unit_zero (S := S2000x1) hz,
    View.ld_unit_zero (S := S2000x64) hz, View.ld_unit_zero (S := S4096x64) hz, View.readCov_unit_zero (S := S4096x64) _ hz]

/-- A middle tile: the accumulator ends at the update applied to what the tile before left. -/
theorem acc_middle (c : Dev nD) (i : grid0.Coords) (arg2 : Memref sig .tc .vmem S2000x1 .i32) (harg2 : arg2.IsWhole)
    (arg3 : Memref sig .tc .vmem S2000x64 .f32) (harg3 : arg3.IsWhole) (arg4 : Memref sig .tc .vmem S4096x64 .f32) (harg4 : arg4.IsWhole)
    (arg5 : Memref sig .tc .vmem S4096x64 .f32) (harg5 : arg5.IsWhole) (arg6 : Memref sig .tc .vmem S4096x64 .f32) (harg6 : arg6.IsWhole)
    (hc0 : ¬cond0_0 i) (hc1 : ¬cond0_1 i) (x0 : Vec F S2000x1 .i32) (x1 : Vec F S2000x64 .f32) (x2 : Vec F S4096x64 .f32)
    (xs0 : Vec F S4096x64 .f32) :
    sout0_B_0 c i arg2 harg2 arg3 harg3 arg4 harg4 arg5 harg5 arg6 harg6 hc0 hc1 x0 x1 x2 xs0 = k0_pay2 i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S4096x64) hz]
  simp only [View.readAt_eq_ld, harg2.read_unread, harg3.read_unread, harg6.read_unread, View.ld_unit_zero (S := S2000x1) hz,
    View.ld_unit_zero (S := S2000x64) hz, View.ld_unit_zero (S := S4096x64) hz]

/-- A last tile: the accumulator ends at the update applied to what the tile before left, -/
theorem acc_last (c : Dev nD) (i : grid0.Coords) (arg2 : Memref sig .tc .vmem S2000x1 .i32) (harg2 : arg2.IsWhole)
    (arg3 : Memref sig .tc .vmem S2000x64 .f32) (harg3 : arg3.IsWhole) (arg4 : Memref sig .tc .vmem S4096x64 .f32) (harg4 : arg4.IsWhole)
    (arg5 : Memref sig .tc .vmem S4096x64 .f32) (harg5 : arg5.IsWhole) (arg6 : Memref sig .tc .vmem S4096x64 .f32) (harg6 : arg6.IsWhole)
    (hc0 : ¬cond0_0 i) (hc1 : cond0_1 i) (x0 : Vec F S2000x1 .i32) (x1 : Vec F S2000x64 .f32) (x2 : Vec F S4096x64 .f32)
    (xs0 : Vec F S4096x64 .f32) :
    sout0_C_0 c i arg2 harg2 arg3 harg3 arg4 harg4 arg5 harg5 arg6 harg6 hc0 hc1 x0 x1 x2 xs0 = k0_pay2 i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S4096x64) hz]
  simp only [View.readAt_eq_ld, harg2.read_unread, harg3.read_unread, harg6.read_unread, View.ld_unit_zero (S := S2000x1) hz,
    View.ld_unit_zero (S := S2000x64) hz, View.ld_unit_zero (S := S4096x64) hz]

/-- and the output block is that same accumulator. -/
theorem out_last (c : Dev nD) (i : grid0.Coords) (arg2 : Memref sig .tc .vmem S2000x1 .i32) (harg2 : arg2.IsWhole)
    (arg3 : Memref sig .tc .vmem S2000x64 .f32) (harg3 : arg3.IsWhole) (arg4 : Memref sig .tc .vmem S4096x64 .f32) (harg4 : arg4.IsWhole)
    (arg5 : Memref sig .tc .vmem S4096x64 .f32) (harg5 : arg5.IsWhole) (arg6 : Memref sig .tc .vmem S4096x64 .f32) (harg6 : arg6.IsWhole)
    (hc0 : ¬cond0_0 i) (hc1 : cond0_1 i) (x0 : Vec F S2000x1 .i32) (x1 : Vec F S2000x64 .f32) (x2 : Vec F S4096x64 .f32)
    (xs0 : Vec F S4096x64 .f32) :
    out0_C_3 c i arg2 harg2 arg3 harg3 arg4 harg4 arg5 harg5 arg6 harg6 hc0 hc1 x0 x1 x2 xs0 = k0_pay2 i x0 x1 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S4096x64) hz]
  simp only [View.readAt_eq_ld, harg2.read_unread, harg3.read_unread, harg6.read_unread, View.ld_unit_zero (S := S2000x1) hz,
    View.ld_unit_zero (S := S2000x64) hz, View.ld_unit_zero (S := S4096x64) hz, View.readCov_unit_zero (S := S4096x64) _ hz]

end Cert.KernelIdeal.Pieces

end
-- ==== Proof.LibContractRows.lean ====
/-
  A matrix product that contracts the ROW axis of both operands, read at one entry, for any extents.

  For a [K × M] left operand and a [K × N] right operand contracted over their first axes (the left operand is used
  transposed), entry (a, b) of the [M × N] product into a zero accumulator is, at the exact (extended-real) instance, the
  sum over the K rows c of left(c, a) · right(c, b).
-/
import Idealize.ShloMosaic.PureOps.Ideal.Laws
import Idealize.ShloMosaic.Lib.ValueIdx

noncomputable section

open scoped BigOperators

namespace Cert.LibCR

open Idealize.ShloMosaic Idealize.ShloMosaic.ValueIdx

/-- The product contracting axis 0 of both operands, into the zero splat, at entry (a, b): the sum over the shared rows. -/
theorem matmul_rows_zero_apply {K M N : ℕ} {φ₁ φ₂ : FTy}
    (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul d prec A B (constant ⟨2, ![M, N]⟩ .f32 0x00000000#32) (ix2 a b) = ∑ c : Fin K, A (ix2 c a) * B (ix2 c b) := by
  obtain ⟨lc, rc, ln, rn, lb, rb, wf⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[0], [0], [1], [1], [], [], wf⟩ : DotDims ⟨2, ![K, M]⟩ ⟨2, ![K, N]⟩ ⟨2, ![M, N]⟩) K rfl rfl).symm]
  refine Finset.sum_congr rfl fun c _ => ?_
  have cv := contrEquiv1_symm_val
    (⟨[0], [0], [1], [1], [], [], wf⟩ : DotDims ⟨2, ![K, M]⟩ ⟨2, ![K, N]⟩ ⟨2, ![M, N]⟩) K rfl rfl c
  have l2 : (⟨[0], [0], [1], [1], [], [], wf⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact cv
    | ⟨1, _⟩ => simp [DotDims.lhsIdx]; rfl
  have r2 : (⟨[0], [0], [1], [1], [], [], wf⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact cv
    | ⟨1, _⟩ => simp [DotDims.rhsIdx]; rfl
  rw [l2, r2]

end Cert.LibCR

end
-- ==== Proof.Spec.lean ====
/-
  The arithmetic of a scatter-add computed tile by tile through equality tests.

  A column of n row numbers (32-bit words) and a column of n extended reals are cut into E tiles of T entries.  For a
  target row r, entry i "hits" when its row number is the word of r, and then contributes its value; otherwise it
  contributes zero.  Summing the hits tile after tile gives the sum of the values over the entries whose row number,
  read as a signed integer, is r.  Only commutativity and associativity of the sum and 1 · x = x, 0 · x = 0 are used,
  so nothing here needs the values to be finite.
-/
import Mathlib.Data.EReal.Operations
import Mathlib.Algebra.BigOperators.Fin
import Mathlib.Algebra.BigOperators.Intervals
import Idealize.ShloMosaic.Lib.StableHlo.Predicate

noncomputable section

open scoped BigOperators

namespace Cert.ScatterSpec

open Idealize.ShloMosaic.StableHlo.Predicate

/-- A column read at a natural number: its entry below the length, a default past it. -/
def atN {α : Type} {n : ℕ} (dflt : α) (f : Fin n → α) (i : ℕ) : α := if h : i < n then f ⟨i, h⟩ else dflt

theorem atN_lt {α : Type} {n : ℕ} (dflt : α) (f : Fin n → α) (i : ℕ) (h : i < n) : atN dflt f i = f ⟨i, h⟩ := dif_pos h

theorem atN_val {α : Type} {n : ℕ} (dflt : α) (f : Fin n → α) (e : Fin n) : atN dflt f e.val = f e := dif_pos e.isLt

/-- The 0/1 weight of an equality test of two words, as an extended real. -/
def ind (a b : BitVec 32) : EReal := if a = b then 1 else 0

theorem ind_mul (a b : BitVec 32) (x : EReal) : ind a b * x = if a = b then x else 0 := by
  unfold ind; split
  · exact one_mul x
  · exact zero_mul x

variable {n : ℕ} (idx : Fin n → BitVec 32) (b : Fin n → EReal)

/-- What entry i contributes to row r. -/
def hit (r i : ℕ) : EReal := if atN 0#32 idx i = BitVec.ofNat 32 r then atN 0 b i else 0

/-- What tile s (entries s·T … s·T + T − 1) contributes to row r. -/
def tile (T r s : ℕ) : EReal := ∑ k : Fin T, hit idx b r (s * T + k.val)

/-- Sums over consecutive tiles of T are the sum over the whole range. -/
theorem sum_tiles {β : Type*} [AddCommMonoid β] (g : ℕ → β) (T : ℕ) :
    ∀ E : ℕ, ∑ s ∈ Finset.range E, ∑ k ∈ Finset.range T, g (s * T + k) = ∑ i ∈ Finset.range (E * T), g i
  | 0 => by simp
  | E + 1 => by
    rw [Finset.sum_range_succ, sum_tiles g T E, Nat.succ_mul, Finset.sum_range_add]

/-- A row number r below 2³¹ is matched as a word exactly when it is matched as a signed integer. -/
theorem word_eq_iff (a : BitVec 32) (r : ℕ) (hr : r < 2 ^ 31) : a = BitVec.ofNat 32 r ↔ a.toInt = (r : ℤ) := by
  constructor
  · intro h; rw [h]; exact toInt_ofNat_small r hr
  · intro h; exact BitVec.eq_of_toInt_eq (h.trans (toInt_ofNat_small r hr).symm)

/-- All E tiles together contribute to row r the sum of the values whose row number, read signed, is r. -/
theorem sum_tile_eq (T E r : ℕ) (hn : E * T = n) (hr : r < 2 ^ 31) :
    ∑ s ∈ Finset.range E, tile idx b T r s
      = ∑ e ∈ Finset.univ.filter (fun e : Fin n => (idx e).toInt = (r : ℤ)), b e := by
  have h1 : ∀ s, tile idx b T r s = ∑ k ∈ Finset.range T, hit idx b r (s * T + k) := fun s =>
    Fin.sum_univ_eq_sum_range (fun k => hit idx b r (s * T + k)) T
  simp only [h1]
  rw [sum_tiles (hit idx b r) T E, hn, ← Fin.sum_univ_eq_sum_range (hit idx b r) n, Finset.sum_filter]
  refine Finset.sum_congr rfl fun e _ => ?_
  unfold hit
  rw [atN_val, atN_val]
  by_cases h : idx e = BitVec.ofNat 32 r
  · rw [if_pos h, if_pos ((word_eq_iff _ r hr).1 h)]
  · rw [if_neg h, if_neg (fun h' => h ((word_eq_iff _ r hr).2 h'))]

end Cert.ScatterSpec

end
-- ==== Proof.Payload.lean ====
/-
  One tile's update of the accumulator, read at one entry.

  For node block n and local row j the kernel tests each of the tile's 2000 row numbers against the word of
  n · 4096 + j, turns the test into the float 1 or 0, and multiplies the [2000 × 4096] matrix of those weights,
  transposed, into the tile's [2000 × 64] values.  At the exact instance the change of float format is the identity and
  the product is an exact sum, so entry (j, f) of the updated accumulator is the old entry plus the sum over the tile's
  rows k of weight(k, j) · value(k, f).
-/
import proofs.«430991_j15642270892741_1_alg».proof.Proof.Gen.KernelIdeal.Skeleton
import proofs.«430991_j15642270892741_1_alg».proof.Proof.LibContractRows
import proofs.«430991_j15642270892741_1_alg».proof.Proof.Spec
import Idealize.ShloMosaic.Lib.Pipeline.Value
import Idealize.ShloMosaic.Lib.StableHlo.Predicate

noncomputable section

open scoped BigOperators

namespace Cert.KernelIdeal.Payload

open Idealize.ShloMosaic Idealize.ShloMosaic.TcCoe Idealize.SL.Sem Idealize.ShloMosaic.ValueIdx
open Idealize.ShloMosaic.StableHlo.Predicate
open Cert.KernelIdeal Cert.KernelIdeal.Gen Cert.ScatterSpec

/-- An equality test of two words, widened and converted to a float, is the 0/1 weight. -/
theorem weight_eq (a b : BitVec 32) :
    FloatOps.sitofp (F := Ideal) .f32 ((IntOp.cmpi .eq a b).setWidth 32) = ind a b := by
  show (((((IntOp.cmpi .eq a b).setWidth 32).toInt : ℤ) : ℝ) : EReal) = ind a b
  unfold ind
  by_cases h : a = b
  · rw [if_pos h, cmpi_eq_iff.2 h]
    show ((((1 : ℤ)) : ℝ) : EReal) = 1
    simp
  · rw [if_neg h, eq_zero_of_ne_one (fun h' => h (cmpi_eq_iff.1 h'))]
    show ((((0 : ℤ)) : ℝ) : EReal) = 0
    simp

/-- The copy of the target block into the accumulator copies it. -/
theorem copy_eq {F : FTy → Type} [FloatOps F] (x : Vec F S4096x64 .f32) : k0_pay1 x = x := by
  unfold k0_pay1
  simp only [shapeCast_self]

/-- The updated accumulator at entry (j, f). -/
theorem update_apply (i : grid0.Coords) (x0 : Vec Ideal S2000x1 .i32) (x1 : Vec Ideal S2000x64 .f32)
    (xs : Vec Ideal S4096x64 .f32) (j : Fin 4096) (f : Fin 64) :
    k0_pay2 (F := Ideal) i x0 x1 xs (ix2 j f)
      = xs (ix2 j f) + ∑ k : Fin 2000, ind (x0 (ixP k)) (BitVec.ofNat 32 ((i 0).val * 4096 + j.val)) * x1 (ix2 k f) := by
  unfold k0_pay2
  dsimp only
  rw [shapeCast_self, addf_apply]
  congr 1
  refine (Cert.LibCR.matmul_rows_zero_apply dot_S2000x4096_S2000x64_S4096x64_0_0_1_1_n_n rfl rfl rfl rfl rfl rfl none _ _ j f).trans ?_
  refine Finset.sum_congr rfl fun k _ => ?_
  rw [truncf_apply, truncf_apply, sitofp_apply, extui_apply]
  show FloatOps.sitofp (F := Ideal) .f32 ((IntOp.cmpi .eq _ _).setWidth 32) * _ = _
  rw [weight_eq]
  congr 2
  · rw [broadcastTo_apply _ broadcasts_S2000x1_S2000x4096 (ix2 k j) (ixP k) (fun a => by
      match a with
      | ⟨0, _⟩ => rfl
      | ⟨1, _⟩ => rfl), shapeCast_self]
  · rw [broadcastTo_apply _ broadcasts_S1x4096_S2000x4096 (ix2 k j) (i1q j) (fun a => by
      match a with
      | ⟨0, _⟩ => rfl
      | ⟨1, _⟩ => rfl)]
    show IntOp.addi (Scalar.muli (BitVec.ofNat 32 (i 0).val) 4096#32) (iota .tc S1x4096 32 [1] iota_S1x4096_d1_w32 (i1q j)) = _
    rw [iota_single_apply]
    show BitVec.ofNat 32 (i 0).val * BitVec.ofNat 32 4096 + BitVec.ofNat 32 j.val = _
    rw [← BitVec.ofNat_mul, ← BitVec.ofNat_add]

end Cert.KernelIdeal.Payload

end
-- ==== Proof.Blocks.lean ====
/-
  Where a grid point's input blocks sit in the arrays.

  Grid point t works on node block t / 625 and edge tile t % 625.  Its block of the row-number column and of the value
  matrix is rows (t % 625) · 2000 … + 1999; its block of the padded target matrix is rows (t / 625) · 4096 … + 4095.
  The row-number column is the index vector reshaped to one column; the padded target is the target matrix with 2400
  rows appended, so a row below 100000 of it is the target's row.
-/
import proofs.«430991_j15642270892741_1_alg».proof.Proof.Gen.KernelIdeal.Frame
import Idealize.ShloMosaic.Lib.Pipeline.Value
import Idealize.ShloMosaic.Lib.KernelVsHost
import Idealize.ShloMosaic.Lib.StableHlo.Run
import Idealize.ShloMosaic.Lib.StableHlo.Predicate
import Idealize.ShloMosaic.Lib.Tactic

noncomputable section

namespace Cert.KernelIdeal.Blocks

open Idealize.ShloMosaic Idealize.ShloMosaic.TcCoe Idealize.SL.Sem Idealize.ShloMosaic.ValueIdx
open Idealize.ShloMosaic.StableHlo.Predicate
open Cert.KernelIdeal Cert.KernelIdeal.Gen

variable {F : FTy → Type} [FloatOps F]
variable (m : (ℓ : Loc nD τ sig) → Buf (Elt F) ℓ)

/-- The printed index maps over the grid: the edge-tile windows follow t % 625, the node-block windows t / 625, and
    the first grid coordinate is the node block. -/
theorem idx_facts : ∀ t : Fin cfg0.N,
    win0_0.index t (0 : Fin 2) = t.val % 625 ∧ win0_0.index t (1 : Fin 2) = 0
    ∧ win0_1.index t (0 : Fin 2) = t.val % 625 ∧ win0_1.index t (1 : Fin 2) = 0
    ∧ win0_2.index t (0 : Fin 2) = t.val / 625 ∧ win0_2.index t (1 : Fin 2) = 0
    ∧ win0_3.index t (0 : Fin 2) = t.val / 625 ∧ win0_3.index t (1 : Fin 2) = 0
    ∧ (grid0.coords t (0 : Fin 2)).val = t.val / 625 :=
  (by decide +kernel : ∀ t : Fin grid0.N, _)

/-- The arrays the region finds, named at their literal types. -/
abbrev idxCol (c : Dev nD) : Vec F S1250000x1 .i32 := V m c main_v0
abbrev vals (c : Dev nD) : Vec F S1250000x64 .f32 := V m c main_arg2
abbrev padded (c : Dev nD) : Vec F S102400x64 .f32 := V m c main_v1

/-- Row k of the tile's row-number block is row (t % 625) · 2000 + k of the column. -/
theorem rows_blk (c : Dev nD) (t : Fin cfg0.N) (k : Fin 2000) (e : Fin 1250000) (he : e.val = t.val % 625 * 2000 + k.val) :
    (iblk m c 0 t : Vec F S2000x1 .i32) (ixP k) = idxCol m c (ixP e) := by
  obtain ⟨e0, e1, -⟩ := idx_facts t
  unfold iblk
  rw [View.read_apply]
  show V m c main_v0 (((cfg0.win 0).blk t).view.emb (ixP k)) = V m c main_v0 (ixP e)
  congr 1
  funext a; apply Fin.ext
  match a with
  | ⟨0, _⟩ => show win0_0.index t (0 : Fin 2) * 2000 + 1 * k.val = e.val; omega
  | ⟨1, _⟩ => show win0_0.index t (1 : Fin 2) * 1 + 1 * 0 = 0; omega

/-- Entry (k, f) of the tile's value block is entry ((t % 625) · 2000 + k, f) of the value matrix. -/
theorem vals_blk (c : Dev nD) (t : Fin cfg0.N) (k : Fin 2000) (f : Fin 64) (e : Fin 1250000) (he : e.val = t.val % 625 * 2000 + k.val) :
    (iblk m c 1 t : Vec F S2000x64 .f32) (ix2 k f) = vals m c (ix2 e f) := by
  obtain ⟨-, -, e0, e1, -⟩ := idx_facts t
  unfold iblk
  rw [View.read_apply]
  show V m c main_arg2 (((cfg0.win 1).blk t).view.emb (ix2 k f)) = V m c main_arg2 (ix2 e f)
  congr 1
  funext a; apply Fin.ext
  match a with
  | ⟨0, _⟩ => show win0_1.index t (0 : Fin 2) * 2000 + 1 * k.val = e.val; omega
  | ⟨1, _⟩ => show win0_1.index t (1 : Fin 2) * 64 + 1 * f.val = f.val; omega

/-- Entry (j, f) of the node block of the padded target is entry ((t / 625) · 4096 + j, f) of it. -/
theorem target_blk (c : Dev nD) (t : Fin cfg0.N) (j : Fin 4096) (f : Fin 64) (r : Fin 102400) (hr : r.val = t.val / 625 * 4096 + j.val) :
    (iblk m c 2 t : Vec F S4096x64 .f32) (ix2 j f) = padded m c (ix2 r f) := by
  obtain ⟨-, -, -, -, e0, e1, -⟩ := idx_facts t
  unfold iblk
  rw [View.read_apply]
  show V m c main_v1 (((cfg0.win 2).blk t).view.emb (ix2 j f)) = V m c main_v1 (ix2 r f)
  congr 1
  funext a; apply Fin.ext
  match a with
  | ⟨0, _⟩ => show win0_2.index t (0 : Fin 2) * 4096 + 1 * j.val = r.val; omega
  | ⟨1, _⟩ => show win0_2.index t (1 : Fin 2) * 64 + 1 * f.val = f.val; omega

/-- The row-number column is the index vector, one number per row. -/
theorem idxCol_eq (c : Dev nD) :
    idxCol m c = shapeCast S1250000x1 (m ((c : Thread nD τ).loc main_arg0)) shapeCasts_S1250000_S1250000x1 := by
  show V m c main_v0 = _
  dsimp only [V, V0]
  simp only [hostOps0, hostOps0_1, List.flatten_cons, List.flatten_nil, List.append_nil, List.cons_append, List.nil_append]
  after_results
  rfl

theorem idxCol_apply (c : Dev nD) (e : Fin 1250000) :
    idxCol m c (ixP e) = (m ((c : Thread nD τ).loc main_arg0) : Vec F S1250000 .i32) (ix1 e) := by
  rw [idxCol_eq]
  refine shapeCast_apply _ _ (ixP e) (ix1 e) ?_
  rw [Shape.rowMajor_val_two, Shape.rowMajor_val_one]
  show e.val = e.val * 1 + 0
  omega

/-- The value matrix is found as launched. -/
theorem vals_eq (c : Dev nD) : vals m c = m ((c : Thread nD τ).loc main_arg2) := V_main_arg2 m c

/-- The padded target is the target matrix with 2400 rows of the padding value appended. -/
theorem padded_eq (c : Dev nD) :
    padded m c = pad S102400x64 ![0, 0] ![2400, 0] ![0, 0] (m ((c : Thread nD τ).loc main_arg1))
      (sitofp (F := F) .f32 (constantI S_ 32 0#32)) pads_S100000x64_S102400x64_024000_000 h_S_ := by
  show V m c main_v1 = _
  dsimp only [V, V0]
  simp only [hostOps0, hostOps0_1, List.flatten_cons, List.flatten_nil, List.append_nil, List.cons_append, List.nil_append]
  after_results
  rfl

/-- A row below 100000 of the padded target is the target's row. -/
theorem padded_apply (c : Dev nD) (r : Fin 102400) (f : Fin 64) (r' : Fin 100000) (hr : r'.val = r.val) :
    padded m c (ix2 r f) = (m ((c : Thread nD τ).loc main_arg1) : Vec F S100000x64 .f32) (ix2 r' f) := by
  rw [padded_eq]
  refine pad_apply_of_inside _ _ _ _ _ pads_S100000x64_S102400x64_024000_000 h_S_ (ix2 r f) (ix2 r' f) ?_
  intro a
  match a with
  | ⟨0, _⟩ => show r.val = 0 + r'.val * (0 + 1); omega
  | ⟨1, _⟩ => show f.val = 0 + f.val * (0 + 1); omega

end Cert.KernelIdeal.Blocks

end
-- ==== Proof.Accum.lean ====
/-
  The accumulator after each grid point.

  Within node block n the accumulator starts, at the first edge tile, from the node block of the padded target, and every
  tile s adds, at local row j, the sum of the tile's values whose row number is the word of n · 4096 + j.  By induction
  on the grid point the accumulator after point t holds, at (j, f), the padded target's entry (n · 4096 + j, f) plus
  the contributions of tiles 0 … t % 625 to that row.
-/
import proofs.«430991_j15642270892741_1_alg».proof.Proof.Pieces
import proofs.«430991_j15642270892741_1_alg».proof.Proof.Payload
import proofs.«430991_j15642270892741_1_alg».proof.Proof.Blocks

noncomputable section

open scoped BigOperators

namespace Cert.KernelIdeal.Accum

open Idealize.ShloMosaic Idealize.ShloMosaic.TcCoe Idealize.SL.Sem Idealize.ShloMosaic.ValueIdx
open Idealize.ShloMosaic.StableHlo.Predicate
open Cert.KernelIdeal Cert.KernelIdeal.Gen Cert.ScatterSpec Cert.KernelIdeal.Blocks

variable (m : (ℓ : Loc nD τ sig) → Buf (Elt Ideal) ℓ)

/-- The index vector as a column of 1250000 row numbers, and column f of the value matrix. -/
abbrev rowNo (c : Dev nD) : Fin 1250000 → BitVec 32 :=
  fun e => (m ((c : Thread nD τ).loc main_arg0) : Vec Ideal S1250000 .i32) (ix1 e)
abbrev col (c : Dev nD) (f : Fin 64) : Fin 1250000 → EReal :=
  fun e => (m ((c : Thread nD τ).loc main_arg2) : Vec Ideal S1250000x64 .f32) (ix2 e f)

/-- The input blocks of a point at their literal types. -/
abbrev rowsAt (c : Dev nD) (t : Fin cfg0.N) : Vec Ideal S2000x1 .i32 := iblk m c 0 t
abbrev valsAt (c : Dev nD) (t : Fin cfg0.N) : Vec Ideal S2000x64 .f32 := iblk m c 1 t
abbrev targetAt (c : Dev nD) (t : Fin cfg0.N) : Vec Ideal S4096x64 .f32 := iblk m c 2 t

/-- One point's update adds its tile's contribution to the row n · 4096 + j. -/
theorem tile_step (c : Dev nD) (t : Fin cfg0.N) (xs : Vec Ideal S4096x64 .f32) (j : Fin 4096) (f : Fin 64) (r : ℕ)
    (hr : r = t.val / 625 * 4096 + j.val) :
    k0_pay2 (F := Ideal) (grid0.coords t) (rowsAt m c t) (valsAt m c t) xs (ix2 j f)
      = xs (ix2 j f) + tile (rowNo m c) (col m c f) 2000 r (t.val % 625) := by
  have hN : t.val < 15625 := lt_of_lt_of_eq t.isLt (show cfg0.N = 15625 from N_0)
  obtain ⟨-, -, -, -, -, -, -, -, ec⟩ := idx_facts t
  refine (Payload.update_apply (grid0.coords t) (rowsAt m c t) (valsAt m c t) xs j f).trans ?_
  congr 1
  unfold tile
  refine Finset.sum_congr rfl fun k _ => ?_
  have hk : t.val % 625 * 2000 + k.val < 1250000 := by have := k.isLt; omega
  have e1 : rowsAt m c t (ixP k) = rowNo m c ⟨_, hk⟩ :=
    (rows_blk m c t k ⟨_, hk⟩ rfl).trans (idxCol_apply m c _)
  have e2 : valsAt m c t (ix2 k f) = col m c f ⟨_, hk⟩ :=
    (vals_blk m c t k f ⟨_, hk⟩ rfl).trans (congrFun (vals_eq m c) _)
  rw [ind_mul, e1, e2, ec, ← hr]
  unfold hit
  rw [atN_lt _ _ _ hk, atN_lt _ _ _ hk]

/-- After a first tile: the padded target's row plus tile 0's contribution. -/
theorem acc_at_first (c : Dev nD) (t : Fin cfg0.N) (h0 : t.val % 625 = 0) (j : Fin 4096) (f : Fin 64) (r : Fin 102400)
    (hr : r.val = t.val / 625 * 4096 + j.val) :
    (outsAt0 m c t.val t.isLt).2 (ix2 j f)
      = padded m c (ix2 r f) + ∑ s ∈ Finset.range (t.val % 625 + 1), tile (rowNo m c) (col m c f) 2000 r.val s := by
  have h1 : ¬t.val % 625 = 624 := by omega
  rw [outsAt0_A m c t h0 h1]
  dsimp only
  refine (congrFun (Pieces.acc_first (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (rowsAt m c t) (valsAt m c t) (targetAt m c t)) (ix2 j f)).trans ?_
  refine (tile_step m c t _ j f r.val hr).trans ?_
  rw [Payload.copy_eq, h0, Finset.sum_range_one]
  exact congrArg (· + _) (target_blk m c t j f r hr)

/-- THE ACCUMULATION: after point n the accumulator holds, at (j, f), the padded target's entry plus the contributions
    of tiles 0 … n % 625. -/
theorem acc_eq (c : Dev nD) : ∀ (n : ℕ) (hn : n < cfg0.N) (j : Fin 4096) (f : Fin 64) (r : Fin 102400)
    (_ : r.val = n / 625 * 4096 + j.val),
    (outsAt0 m c n hn).2 (ix2 j f)
      = padded m c (ix2 r f) + ∑ s ∈ Finset.range (n % 625 + 1), tile (rowNo m c) (col m c f) 2000 r.val s
  | 0, hn, j, f, r, hr => acc_at_first m c ⟨0, hn⟩ rfl j f r hr
  | n + 1, hn, j, f, r, hr => by
    by_cases h0 : (n + 1) % 625 = 0
    · exact acc_at_first m c ⟨n + 1, hn⟩ h0 j f r hr
    · have hq : (n + 1) / 625 = n / 625 := by omega
      have hm : (n + 1) % 625 = n % 625 + 1 := by omega
      have ih := acc_eq c n (Nat.lt_of_succ_lt hn) j f r (by omega)
      by_cases h1 : (n + 1) % 625 = 624
      · rw [outsAt0_C m c ⟨n + 1, hn⟩ h0 h1]
        dsimp only
        refine (congrFun (Pieces.acc_last (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
          scM0_0 (Memref.isWhole_whole _) (fun h => h0 ((hcond0_0 ⟨n + 1, hn⟩).mp h)) ((hcond0_1 ⟨n + 1, hn⟩).mpr h1)
          (rowsAt m c ⟨n + 1, hn⟩) (valsAt m c ⟨n + 1, hn⟩) (targetAt m c ⟨n + 1, hn⟩)
          (outsAt0 m c n (Nat.lt_of_succ_lt hn)).2) (ix2 j f)).trans ?_
        refine (tile_step m c ⟨n + 1, hn⟩ _ j f r.val hr).trans ?_
        rw [ih]
        show _ + _ + tile _ _ 2000 r.val ((n + 1) % 625) = _
        rw [hm, Finset.sum_range_succ _ (n % 625 + 1), add_assoc]
      · rw [outsAt0_B m c ⟨n + 1, hn⟩ h0 h1]
        dsimp only
        refine (congrFun (Pieces.acc_middle (F := Ideal) c (grid0.coords ⟨n + 1, hn⟩) (ms0_0 ⟨n + 1, hn⟩) (hs0_0 ⟨n + 1, hn⟩)
          (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
          scM0_0 (Memref.isWhole_whole _) (fun h => h0 ((hcond0_0 ⟨n + 1, hn⟩).mp h)) (fun h => h1 ((hcond0_1 ⟨n + 1, hn⟩).mp h))
          (rowsAt m c ⟨n + 1, hn⟩) (valsAt m c ⟨n + 1, hn⟩) (targetAt m c ⟨n + 1, hn⟩)
          (outsAt0 m c n (Nat.lt_of_succ_lt hn)).2) (ix2 j f)).trans ?_
        refine (tile_step m c ⟨n + 1, hn⟩ _ j f r.val hr).trans ?_
        rw [ih]
        show _ + _ + tile _ _ 2000 r.val ((n + 1) % 625) = _
        rw [hm, Finset.sum_range_succ _ (n % 625 + 1), add_assoc]

/-- At a last tile the output block is the accumulator. -/
theorem out_eq_acc (c : Dev nD) (t : Fin cfg0.N) (h1 : t.val % 625 = 624) :
    (outsAt0 m c t.val t.isLt).1 = (outsAt0 m c t.val t.isLt).2 := by
  have h0 : ¬t.val % 625 = 0 := by omega
  rw [outsAt0_C m c t h0 h1]
  dsimp only
  rw [Pieces.out_last, Pieces.acc_last]

end Cert.KernelIdeal.Accum

end
-- ==== Proof.Final.lean ====
/-
  The kernel's result.

  A node block's output block is written back once, after its last edge tile, when the accumulator holds the padded
  target's rows plus the contributions of all 625 tiles.  The 25 node blocks tile the padded [102400 × 64] array, so it
  ends, at (r, f), at padded target(r, f) plus the sum over all tiles of their contribution to row r.  The host then
  keeps rows 0 … 99999, where the padded target is the target, and all the tiles together contribute the sum of the
  values whose row number, read as a signed integer, is r.
-/
import proofs.«430991_j15642270892741_1_alg».proof.Proof.Accum

noncomputable section

open scoped BigOperators

namespace Cert.KernelIdeal.Final

open Idealize.ShloMosaic Idealize.ShloMosaic.TcCoe Idealize.SL.Sem Idealize.ShloMosaic.ValueIdx
open Idealize.ShloMosaic.StableHlo.Predicate
open Idealize.ShloMosaic.Pipeline (Dat)
open Cert.KernelIdeal Cert.KernelIdeal.Gen Cert.ScatterSpec Cert.KernelIdeal.Blocks Cert.KernelIdeal.Accum

variable (m : (ℓ : Loc nD τ sig) → Buf (Elt Ideal) ℓ) (ρ : Dev nD → PrngReg)

/-- What the padded output array ends holding: the padded target plus every tile's contribution. -/
def whole (c : Dev nD) : Vec Ideal S102400x64 .f32 := fun i =>
  padded m c i + ∑ s ∈ Finset.range 625, tile (rowNo m c) (col m c (i 1)) 2000 (i 0).val s

/-- A last tile writes back its node block of that array. -/
theorem flushed_eq (c : Dev nD) (t : Fin cfg0.N) (hf : (cfg0.win 3).flush t = true) :
    (dats m 0 c).flushed 3 t = ((cfg0.win 3).blk t).view.read (Elt Ideal) (whole m c) := by
  have h1 : t.val % 625 = 624 := (flush0_3 t).mp hf
  have hN : t.val < 15625 := lt_of_lt_of_eq t.isLt (show cfg0.N = 15625 from N_0)
  obtain ⟨-, -, -, -, -, -, e0, e1, -⟩ := idx_facts t
  show (cfg0.win 3).cut (grid0.coords t) ((dats m 0 c).after 3 t) = _
  rw [after0_3, out_eq_acc m c t h1]
  funext y
  obtain ⟨j, f, rfl⟩ : ∃ (j : Fin 4096) (f : Fin 64), y = ix2 j f := ⟨y 0, y 1, eq_ix2 y⟩
  have hj := j.isLt
  have hr : t.val / 625 * 4096 + j.val < 102400 := by omega
  rw [View.read_apply]
  refine (acc_eq m c t.val t.isLt j f ⟨_, hr⟩ rfl).trans ?_
  have hemb : ((cfg0.win 3).blk t).view.emb (ix2 j f) = ix2 (⟨_, hr⟩ : Fin 102400) f := by
    funext a; apply Fin.ext
    match a with
    | ⟨0, _⟩ => show win0_3.index t (0 : Fin 2) * 4096 + 1 * j.val = t.val / 625 * 4096 + j.val; omega
    | ⟨1, _⟩ => show win0_3.index t (1 : Fin 2) * 64 + 1 * f.val = f.val; omega
  rw [hemb, h1]
  rfl

/-- An index of the padded array is in point t's output block iff each coordinate is in the block's range. -/
theorem mem_blk (t : Fin cfg0.N) (i : S102400x64.Idx) :
    i ∈ ((cfg0.win 3).blk t).view.set ↔ ∀ a : Fin 2, win0_3.index t a * S4096x64.size a ≤ (i a).val
      ∧ (i a).val < win0_3.index t a * S4096x64.size a + S4096x64.size a := by
  show i ∈ ((View.whole main_v2).slice (win0_3.rect t)).set ↔ _
  rw [View.set_slice_whole, Rect.mem_set_unit]
  exact Iff.rfl

/-- Row r lies in the block written back after the last tile of node block r / 4096. -/
theorem cover (i : S102400x64.Idx) : ∃ t : Fin cfg0.N, (cfg0.win 3).flush t = true ∧ i ∈ ((cfg0.win 3).blk t).view.set := by
  have hi0 : (i 0).val < 102400 := (i 0).isLt
  have hi1 : (i 1).val < 64 := (i 1).isLt
  have ht : (i 0).val / 4096 * 625 + 624 < cfg0.N := by rw [show cfg0.N = 15625 from N_0]; omega
  refine ⟨⟨_, ht⟩, (flush0_3 _).mpr (by show ((i 0).val / 4096 * 625 + 624) % 625 = 624; omega), ?_⟩
  obtain ⟨-, -, -, -, -, -, e0, e1, -⟩ := idx_facts ⟨_, ht⟩
  have e0' : win0_3.index ⟨_, ht⟩ (0 : Fin 2) = (i 0).val / 4096 := by rw [e0]; show ((i 0).val / 4096 * 625 + 624) / 625 = _; omega
  rw [mem_blk]
  intro a
  match a with
  | ⟨0, _⟩ => show win0_3.index ⟨_, ht⟩ (0 : Fin 2) * 4096 ≤ (i 0).val ∧ (i 0).val < win0_3.index ⟨_, ht⟩ (0 : Fin 2) * 4096 + 4096
              rw [e0']; omega
  | ⟨1, _⟩ => show win0_3.index ⟨_, ht⟩ (1 : Fin 2) * 64 ≤ (i 1).val ∧ (i 1).val < win0_3.index ⟨_, ht⟩ (1 : Fin 2) * 64 + 64
              rw [e1]; omega

/-- So the padded output array ends at the closed form. -/
theorem final (c : Dev nD) : (dats m 0 c).arrAt 3 cfg0.N = whole m c :=
  (dats m 0 c).arrAt_eq_of_cover 3 (whole m c) (flushed_eq m c) cover

/-- The target matrix as launched. -/
abbrev target (c : Dev nD) : Vec Ideal S100000x64 .f32 := m ((c : Thread nD τ).loc main_arg1)

/-- THE RESULT: the target's entry plus the sum of the values whose row number, read signed, is the row. -/
def result (c : Dev nD) : Vec Ideal S100000x64 .f32 := fun i =>
  target m c i
    + ∑ e ∈ Finset.univ.filter (fun e : Fin 1250000 => (rowNo m c e).toInt = ((i 0).val : ℤ)), col m c (i 1) e

/-- Rows 0 … 99999 of the closed form are the result. -/
theorem slice_whole (c : Dev nD) :
    extractStridedSlice S100000x64 ![0, 0] (whole m c) slices_S102400x64_S100000x64_0_0 = result m c := by
  funext i
  obtain ⟨r, f, rfl⟩ : ∃ (r : Fin 100000) (f : Fin 64), i = ix2 r f := ⟨i 0, i 1, eq_ix2 i⟩
  have hr := r.isLt
  have hr' : r.val < 102400 := by omega
  refine (extractStridedSlice_apply _ _ slices_S102400x64_S100000x64_0_0 (ix2 r f) (ix2 (⟨r.val, hr'⟩ : Fin 102400) f) (fun a => by
    match a with
    | ⟨0, _⟩ => show r.val = 0 + r.val; omega
    | ⟨1, _⟩ => show f.val = 0 + f.val; omega)).trans ?_
  show padded m c (ix2 _ f) + _ = target m c (ix2 r f) + _
  rw [padded_apply m c _ f r rfl]
  refine congrArg (target m c (ix2 r f) + ·) ?_
  exact sum_tile_eq (rowNo m c) (col m c f) 2000 625 r.val (by norm_num) (by omega)

/-- The host's slice after the region reads the padded output array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = whole m c := (Pipeline.withArrays_arr spec0 launch0.win.arr_inj c _ _ 3).trans (final m c)
  rw [e]
  exact slice_whole m c

/-- The run, read: the result array at the result, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Final

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.RefValue.lean ====
/-
  The reference's result, entry by entry.

  The reference wraps a negative row number by adding 100000, then scatters: entry (r, f) of its result is the target's
  entry plus the sum of the values whose (wrapped) row number, read as a signed integer, is r; a row number outside
  0 … 99999 lands nowhere.  On non-negative row numbers nothing is wrapped.
-/
import proofs.«430991_j15642270892741_1_alg».proof.Proof.Gen.ReferenceIdeal.Read
import proofs.«430991_j15642270892741_1_alg».proof.Proof.LibScatterGather
import Idealize.ShloMosaic.Lib.Affine

noncomputable section

open scoped BigOperators

namespace Cert.ReferenceIdeal.RefValue

open Idealize.ShloMosaic Idealize.ShloMosaic.TcCoe Idealize.SL.Sem Idealize.ShloMosaic.ValueIdx
open Idealize.ShloMosaic.StableHlo.Predicate
open Cert.ReferenceIdeal Cert.ReferenceIdeal.Gen Cert.ReferenceIdeal.Read

/-- A non-negative row number is not wrapped. -/
theorem wrapped_eq (x0 : IVec S1250000 32) (hx : ∀ e : Fin 1250000, 0 ≤ (x0 (ix1 e)).toInt) (e : Fin 1250000) :
    val_main_v5 (F := Ideal) x0 (ixP e) = x0 (ix1 e) := by
  have hi : idx_main_v5 (ixP e) = ix1 e := by
    funext a
    match a with
    | ⟨0, _⟩ => rfl
  rw [val_main_v5_apply, val_main_v4_apply, val_main_v1_apply, hi]
  have hlt : IntOp.cmpi .slt (x0 (ix1 e)) (val_main_v0 (F := Ideal) (ix1 e)) = 0#1 := by
    apply eq_zero_of_ne_one
    intro h
    have h' := IntOp.cmpi_slt.1 h
    rw [val_main_v0_apply, val_main_c_apply] at h'
    have h0 : (0#32 : BitVec 32).toInt = 0 := by decide
    have := hx e
    omega
  rw [hlt, select_zero]

/-- The reference's result at (r, f), on non-negative row numbers. -/
theorem result_apply (x0 : IVec S1250000 32) (x1 : FVec Ideal S100000x64 .f32) (x2 : FVec Ideal S1250000x64 .f32)
    (hx : ∀ e : Fin 1250000, 0 ≤ (x0 (ix1 e)).toInt) (r : Fin 100000) (f : Fin 64) :
    val_main_v6 (F := Ideal) x0 x1 x2 (ix2 r f)
      = x1 (ix2 r f) + ∑ e ∈ Finset.univ.filter (fun e : Fin 1250000 => (x0 (ix1 e)).toInt = (r.val : ℤ)), x2 (ix2 e f) := by
  unfold val_main_v6
  rw [Cert.LibSG.scatterAdd_rows scatter_S100000x64_S1250000x1_S1250000x64_1_0_0_1 rfl rfl rfl rfl x1 _ x2 r f]
  refine congrArg (x1 (ix2 r f) + ·) ?_
  refine Finset.sum_congr ?_ (fun _ _ => rfl)
  exact Finset.filter_congr fun e _ => by rw [wrapped_eq x0 hx e]

end Cert.ReferenceIdeal.RefValue

end
-- ==== Proof.PreDecode.lean ====
/-
  What the precondition says of the index vector: every entry, read as a signed integer, is non-negative.
-/
import proofs.«430991_j15642270892741_1_alg».proof.Pre_finite_inputs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Cert.Pre_finite_inputs

instance : Subsingleton S_.Idx := ⟨fun a b => funext fun d => d.elim0⟩

/-- The precondition's last conjunct, entry by entry. -/
theorem index_nonneg [Cert.Pre_finite_inputs.Facts] {F : FTy → Type} [FloatOps F] (idx : IVec S1250000 32)
    (A : FVec F S100000x64 .f32) (B : FVec F S1250000x64 .f32)
    (h : Cert.Pre_finite_inputs.fn (F := F) idx A B = fun _ => 1#1) (e : Fin 1250000) :
    0 ≤ (idx (ix1 e)).toInt := by
  have h0 := congrFun h ix0
  dsimp only [Cert.Pre_finite_inputs.fn] at h0
  obtain ⟨-, h11⟩ := IntOp.andi_eq_one.1 h0
  have he := Host.reduce_andi_all _ _ _ _ ix0 h11 (ix1 e)
  have h2 := IntOp.cmpi_sge.1 he
  exact h2

end Cert.PreDecode

end
-- ==== Proof.lean ====
/-
  A scatter-add of 1250000 value rows into a [100000 × 64] target, computed on the matrix unit.

  The kernel walks 25 node blocks of 4096 target rows and, inside each, 625 edge tiles of 2000 values.  For a tile it
  builds the 0/1 matrix "row number of value k is node n · 4096 + j", multiplies its transpose into the tile's values
  and adds the product to an accumulator that starts from the node block of the target (padded to 102400 rows); after
  the last tile the accumulator is the output block, and the host keeps rows 0 … 99999.  Over the extended reals the
  change of float format is the identity, 1 · x = x and 0 · x = 0, and sums may be regrouped freely, so row r of the
  result is the target's row plus the sum of the values whose row number is r.  The reference scatters the values at
  their row numbers after wrapping a negative one by + 100000; an out-of-range row number is dropped by both programs
  (the kernel's extra rows 100000 … 102399 are cut off).  The two agree exactly when no row number is wrapped, which is
  what the precondition's conjunct "index ≥ 0" says; finiteness of the values is not needed.
-/
import proofs.«430991_j15642270892741_1_alg».proof.Defs
import proofs.«430991_j15642270892741_1_alg».proof.Proof.Gen.Kernel
import proofs.«430991_j15642270892741_1_alg».proof.Proof.Gen.Kernel.Skeleton
import proofs.«430991_j15642270892741_1_alg».proof.Proof.Gen.Kernel.Launch
import proofs.«430991_j15642270892741_1_alg».proof.Proof.Gen.Kernel.Points
import proofs.«430991_j15642270892741_1_alg».proof.Proof.Gen.Kernel.Frame
import proofs.«430991_j15642270892741_1_alg».proof.Proof.Gen.KernelIdeal
import proofs.«430991_j15642270892741_1_alg».proof.Proof.Gen.KernelIdeal.Skeleton
import proofs.«430991_j15642270892741_1_alg».proof.Proof.Gen.KernelIdeal.Launch
import proofs.«430991_j15642270892741_1_alg».proof.Proof.Gen.KernelIdeal.Points
import proofs.«430991_j15642270892741_1_alg».proof.Proof.Gen.KernelIdeal.Frame
import proofs.«430991_j15642270892741_1_alg».proof.Proof.Gen.ReferenceIdeal
import proofs.«430991_j15642270892741_1_alg».proof.Proof.Gen.ReferenceIdeal.Run
import proofs.«430991_j15642270892741_1_alg».proof.Proof.Gen.ReferenceIdeal.Read
import proofs.«430991_j15642270892741_1_alg».proof.Proof.Gen.Pre_finite_inputs
import proofs.«430991_j15642270892741_1_alg».proof.Proof.Final
import proofs.«430991_j15642270892741_1_alg».proof.Proof.RefValue
import proofs.«430991_j15642270892741_1_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is nine host operations; its run keeps the arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten for the reading over the extended reals. -/
theorem preserves : Cert.preserves_Kernel_KernelIdeal := trivial

/-- Both programs end at the target's entry plus the sum of the values whose row number, read signed, is the row:
    the kernel through its tiles, the reference through its scatter on row numbers the precondition keeps unwrapped. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v6_eq]
  funext i
  obtain ⟨r, f, rfl⟩ : ∃ (r : Fin 100000) (f : Fin 64), i = ix2 r f := ⟨i 0, i 1, eq_ix2 i⟩
  exact Cert.ReferenceIdeal.RefValue.result_apply _ _ _
    (fun e => Cert.PreDecode.index_nonneg _ _ _ (hpre c) e) r f

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
